-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Weight.lean ====
/-
  The binarized weight at one entry, on the extended reals.

  With σ the logistic function, a weight entry M and a uniform draw u give the sign b = [u < σ(M)] ∈ {0, 1} and the
  weight (2·b − 1)·2⁻⁶ ∈ {−2⁻⁶, +2⁻⁶}. One side spells σ as the single logistic operation and converts the comparison
  bit by widening it to a word first; the other spells σ(M) as 1 / (1 + e^(−M)), converts the bit directly, and adds the
  straight-through term s − s with s = 2·σ(M) − 1 before scaling. σ takes a REAL value at every extended real (0 at −∞,
  1 at +∞), so s is real, s − s = 0, and the two spellings are one number.
-/
import Idealize.ShloMosaic.PureOps.Ideal
import Idealize.ShloMosaic.Lib.IdealHost
import Idealize.ShloMosaic.Lib.KernelVsHost

noncomputable section

namespace Cert.BinaryDense

open Idealize.ShloMosaic

/-- The 32-bit float word of two denotes the real two. -/
theorem two_word : Ideal.ofBits .f32 0x40000000#32 = ((2 : ℝ) : EReal) := by
  simp [Ideal.ofBits, Ideal.ieee, -EReal.coe_mul]; norm_num

/-- The logistic function is real at every extended real: 0 at −∞, 1/(1 + e^(−r)) at a real r, 1 at +∞. -/
theorem logistic_real (y : EReal) : ∃ r : ℝ, Ideal.logistic y = (r : EReal) := by
  induction y using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The straight-through term s = 2·σ(y) − 1 is real, so s − s = 0. -/
theorem straight_through_cancels (y : EReal) :
    (Ideal.ofBits .f32 0x40000000#32 * Ideal.logistic y - 1) - (Ideal.ofBits .f32 0x40000000#32 * Ideal.logistic y - 1) = 0 := by
  obtain ⟨r, hr⟩ := logistic_real y
  rw [hr, two_word, ← EReal.coe_one, ← EReal.coe_mul, ← EReal.coe_sub, ← EReal.coe_sub, sub_self, EReal.coe_zero]

/-- THE WEIGHT at one entry: (2·[u < σ(M)] − 1)·2⁻⁶, the float words kept as words. -/
def wt (Mv uv : Ideal .f32) : Ideal .f32 :=
  FloatOps.mulf (FloatOps.subf (FloatOps.mulf (FloatOps.ofBits .f32 0x40000000#32)
    (FloatOps.uitofp .f32 (FloatOps.cmpf .olt uv (FloatOps.logistic Mv)))) (FloatOps.ofBits .f32 0x3F800000#32))
    (FloatOps.ofBits .f32 0x3C800000#32)

/-- The weights of a whole array of entries. -/
def wtv {s : Shape} (Mb ub : FVec Ideal s .f32) : FVec Ideal s .f32 := fun i => wt (Mb i) (ub i)

theorem wtv_apply {s : Shape} (Mb ub : FVec Ideal s .f32) (i : s.Idx) : wtv Mb ub i = wt (Mb i) (ub i) := rfl

/-- The spelling with σ(M) written out as 1 / (1 + e^(−M)) and the straight-through term added is the weight. -/
theorem wt_spelt_out (Mv uv : Ideal .f32) :
    FloatOps.mulf
      (FloatOps.addf
        (FloatOps.subf
          (FloatOps.mulf (FloatOps.ofBits .f32 0x40000000#32)
            (FloatOps.uitofp .f32 (FloatOps.cmpf .olt uv
              (FloatOps.hostDivf (FloatOps.ofBits .f32 0x3F800000#32)
                (FloatOps.addf (FloatOps.ofBits .f32 0x3F800000#32) (FloatOps.hostUnary .exp (FloatOps.hostNegf Mv)))))))
          (FloatOps.ofBits .f32 0x3F800000#32))
        (FloatOps.subf
          (FloatOps.subf
            (FloatOps.mulf (FloatOps.ofBits .f32 0x40000000#32)
              (FloatOps.hostDivf (FloatOps.ofBits .f32 0x3F800000#32)
                (FloatOps.addf (FloatOps.ofBits .f32 0x3F800000#32) (FloatOps.hostUnary .exp (FloatOps.hostNegf Mv)))))
            (FloatOps.ofBits .f32 0x3F800000#32))
          (FloatOps.subf
            (FloatOps.mulf (FloatOps.ofBits .f32 0x40000000#32)
              (FloatOps.hostDivf (FloatOps.ofBits .f32 0x3F800000#32)
                (FloatOps.addf (FloatOps.ofBits .f32 0x3F800000#32) (FloatOps.hostUnary .exp (FloatOps.hostNegf Mv)))))
            (FloatOps.ofBits .f32 0x3F800000#32))))
      (FloatOps.ofBits .f32 0x3C800000#32)
      = wt Mv uv := by
  have hσ : FloatOps.hostDivf (FloatOps.ofBits (F := Ideal) .f32 0x3F800000#32)
      (FloatOps.addf (FloatOps.ofBits .f32 0x3F800000#32) (FloatOps.hostUnary .exp (FloatOps.hostNegf Mv)))
      = Ideal.logistic Mv := by
    simp only [Ideal.ofBits_def, Ideal.ofBits_one_f32]; rfl
  rw [hσ]
  unfold wt
  simp only [Ideal.ofBits_def, Ideal.ofBits_one_f32, Ideal.addf_def, Ideal.subf_def, Ideal.mulf_def, Ideal.logistic_def]
  rw [straight_through_cancels, add_zero]

/-- The comparison bit widened to a word and converted signed, scaled and shifted the same way, is the weight array. -/
theorem wtv_widened {s : Shape} (Mb ub : FVec Ideal s .f32) (h : 1 < 32) :
    mulf (subf (mulf (broadcast s (Scalar.ofBits .f32 0x40000000#32))
      (sitofp .f32 (extui 32 (cmpf .olt ub (logistic Mb)) h)))
      (broadcast s (Scalar.ofBits .f32 0x3F800000#32))) (broadcast s (Scalar.ofBits .f32 0x3C800000#32))
      = wtv Mb ub := by
  rw [sitofp_extui_eq_uitofp]; rfl

end Cert.BinaryDense

end
-- ==== Proof.KernelBlock.lean ====
/-
  One grid point's arithmetic at an entry of its block, on the extended reals.

  At a point the body holds a 1024 × 1024 block of x, of M and of u, and the running block acc. It forms the weights
  (2·[u < σ(M)] − 1)·2⁻⁶ of the block, narrows both factors to bf16 (the identity on the extended reals), multiplies
  them on the matrix unit into a zero accumulator and adds the product to acc. So entry (p, q) of what it stores is
  acc(p, q) + Σ_k x(p, k)·wt(M(k, q), u(k, q)). At the first depth block acc is the zero block.
-/
import proofs.«167351_j26044681683332_1_alg».proof.Proof.Gen.KernelIdeal.Skeleton
import proofs.«167351_j26044681683332_1_alg».proof.Proof.Weight
import Idealize.ShloMosaic.Lib.StackMember
import Idealize.ShloMosaic.Lib.Pipeline.Value
import Idealize.ShloMosaic.Lib.ValueIdx
import Idealize.ShloMosaic.PureOps.Ideal.Laws

noncomputable section

open scoped BigOperators

namespace Cert.BinaryDense

open Idealize.ShloMosaic Idealize.ShloMosaic.ValueIdx Cert.KernelIdeal Cert.KernelIdeal.Gen

/-- The block the first depth step starts from is zero at every entry. -/
theorem zero_block_apply (y : S1024x1024.Idx) : k0_pay1 (F := Ideal) y = 0 := by
  unfold k0_pay1
  rw [shapeCast_self]
  exact Ideal.ofBits_zero_f32

/-- One depth step at entry (p, q): the running block's entry plus the 1024-deep partial product of the x block's row p
    with the weight block's column q. -/
theorem step_apply (Mb ub xb acc : Vec Ideal S1024x1024 .f32) (p q : Fin 1024) :
    k0_pay2 (F := Ideal) Mb ub xb acc (ix2 p q)
      = acc (ix2 p q) + ∑ k : Fin 1024, xb (ix2 p k) * wt (Mb (ix2 k q)) (ub (ix2 k q)) := by
  unfold k0_pay2
  rw [shapeCast_self, wtv_widened]
  refine congrArg (acc (ix2 p q) + ·) ?_
  rw [matmul_zero_eq_dotGeneral]
  exact StackMember.dotGeneral_plain_apply none _ _ p q

end Cert.BinaryDense

end
-- ==== Proof.KernelCases.lean ====
/-
  What each case of the body leaves in the carried block and in the output block, as one term of its loads.

  The body has three cases by depth block. At the first depth block it stores the zero block into the carried block, reads
  it back, and stores one depth step over it. At a middle depth block it stores one depth step over what the point before
  left. At the last depth block it does the same and then copies the carried block into the output block. Every store
  is of the whole 1024 × 1024 block at offset (0, 0), so what a run of stores leaves is the last store's value, and a
  load after a store reads that store's value.
-/
import proofs.«167351_j26044681683332_1_alg».proof.Proof.Gen.KernelIdeal.Frame
import Idealize.ShloMosaic.Lib.Pipeline.Value

set_option maxRecDepth 16384

noncomputable section

namespace Cert.BinaryDense

open Idealize.ShloMosaic Idealize.ShloMosaic.TcCoe Idealize.ShloMosaic.Tactic
open Idealize.SL Idealize.SL.Sem
open Cert.KernelIdeal Cert.KernelIdeal.Gen

variable {F : FTy → Type} [FloatOps F]

/-- The offset (0, 0) of every store and load of the body. -/
theorem origin : (![0, 0] : Fin 2 → Nat) = fun _ => 0 := funext fun a => by fin_cases a <;> rfl

/-- First depth block: the carried block ends at one depth step over the zero block. -/
theorem carried_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 x2 : Vec F S1024x1024 .f32) :
    sout0_A_0 c i arg3 harg3 arg4 harg4 arg5 harg5 arg6 harg6 arg7 harg7 hc0 hc1 x0 x1 x2 = k0_pay2 x1 x2 x0 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread, View.ld_unit_zero (S := S1024x1024) origin]

/-- Middle depth block: the carried block ends at one depth step over what the point before left. -/
theorem carried_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 x2 xs0 : Vec F S1024x1024 .f32) :
    sout0_B_0 c i arg3 harg3 arg4 harg4 arg5 harg5 arg6 harg6 arg7 harg7 hc0 hc1 x0 x1 x2 xs0 = k0_pay2 x1 x2 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg5.read_unread, harg7.read_unread, View.ld_unit_zero (S := S1024x1024) origin]

/-- Last depth block: the carried block ends at one depth step over what the point before left … -/
theorem carried_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 x2 xs0 : Vec F S1024x1024 .f32) :
    sout0_C_0 c i arg3 harg3 arg4 harg4 arg5 harg5 arg6 harg6 arg7 harg7 hc0 hc1 x0 x1 x2 xs0 = k0_pay2 x1 x2 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread, View.ld_unit_zero (S := S1024x1024) origin]

/-- … and the output block is that same block, copied. -/
theorem output_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 x2 xs0 : Vec F S1024x1024 .f32) :
    out0_C_3 c i arg3 harg3 arg4 harg4 arg5 harg5 arg6 harg6 arg7 harg7 hc0 hc1 x0 x1 x2 xs0 = k0_pay2 x1 x2 x0 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread, View.ld_unit_zero (S := S1024x1024) origin]

end Cert.BinaryDense

end
-- ==== Proof.BlockSum.lean ====
/-
  A 4096-deep matrix product cut into four 1024-deep partial products.

  For X of 8192 × 4096 and W of 4096 × 4096, entry (r, c) of X·W is the sum over e < 4096 of X(r, e)·W(e, c). The grid
  walks 128 points n; point n works on the row block n / 16, the column block (n / 4) mod 4 and the depth block n mod 4,
  and adds, at entry (p, q) of the 1024 × 1024 block, the sum over k < 1024 of
  X(1024·(n/16) + p, 1024·(n mod 4) + k) · W(1024·(n mod 4) + k, 1024·((n/4) mod 4) + q).
  Four consecutive points b, b+1, b+2, b+3 with 4 ∣ b share the row and column block and run through the four depth
  blocks, so their addends sum to the whole entry: e = 1024·s + k is a bijection of {0..3} × {0..1023} with {0..4095},
  and sums over the extended reals may be regrouped freely (addition there is commutative and associative).
-/
import Idealize.ShloMosaic.Lib.ValueIdx
import Mathlib.Algebra.BigOperators.Fin
import Mathlib.Logic.Equiv.Fin.Basic

noncomputable section

open scoped BigOperators

namespace Cert.BinaryDense

open Idealize.ShloMosaic Idealize.ShloMosaic.ValueIdx

/-- Two rank-2 indices with the same coordinates are equal. -/
theorem idx2_ext {n0 n1 : Nat} {x y : (⟨2, ![n0, n1]⟩ : Shape).Idx} (h0 : (x 0).val = (y 0).val) (h1 : (x 1).val = (y 1).val) :
    x = y :=
  funext fun a => Fin.ext <| match a with | ⟨0, _⟩ => h0 | ⟨1, _⟩ => h1

/-- The whole product X·W read at an entry. -/
def prod (X : FVec Ideal ⟨2, ![8192, 4096]⟩ .f32) (W : FVec Ideal ⟨2, ![4096, 4096]⟩ .f32) :
    FVec Ideal ⟨2, ![8192, 4096]⟩ .f32 :=
  fun i => ∑ e : Fin 4096, X (ix2 (i 0) e) * W (ix2 e (i 1))

/-- Row `p` of point `n`'s row block, in the whole array. -/
abbrev rowOf (n : ℕ) (p : Fin 1024) : Fin 8192 := ⟨1024 * (n / 16 % 8) + p.val, by have := p.isLt; omega⟩
/-- Depth coordinate `k` of point `n`'s depth block, in the whole arrays. -/
abbrev depOf (n : ℕ) (k : Fin 1024) : Fin 4096 := ⟨1024 * (n % 4) + k.val, by have := k.isLt; omega⟩
/-- Column `q` of point `n`'s column block, in the whole array. -/
abbrev colOf (n : ℕ) (q : Fin 1024) : Fin 4096 := ⟨1024 * (n / 4 % 4) + q.val, by have := q.isLt; omega⟩

/-- What grid point `n` adds at entry `y` of its block: the partial product over the point's depth block. -/
def addend (X : FVec Ideal ⟨2, ![8192, 4096]⟩ .f32) (W : FVec Ideal ⟨2, ![4096, 4096]⟩ .f32) (n : ℕ)
    (y : (⟨2, ![1024, 1024]⟩ : Shape).Idx) : Ideal .f32 :=
  ∑ k : Fin 1024, X (ix2 (rowOf n (y 0)) (depOf n k)) * W (ix2 (depOf n k) (colOf n (y 1)))

/-- The addends of the four points of one run, `b … b + 3` with `4 ∣ b`, sum to the whole product's entry. -/
theorem sum_addends (X : FVec Ideal ⟨2, ![8192, 4096]⟩ .f32) (W : FVec Ideal ⟨2, ![4096, 4096]⟩ .f32) (b : ℕ) (hb : b % 4 = 0)
    (y : (⟨2, ![1024, 1024]⟩ : Shape).Idx) (i : (⟨2, ![8192, 4096]⟩ : Shape).Idx)
    (h0 : (i 0).val = 1024 * (b / 16 % 8) + (y 0).val) (h1 : (i 1).val = 1024 * (b / 4 % 4) + (y 1).val) :
    ∑ s ∈ Finset.range 4, addend X W (b + s) y = prod X W i := by
  unfold prod
  rw [Finset.sum_range, ← Equiv.sum_comp (finProdFinEquiv : Fin 4 × Fin 1024 ≃ Fin 4096), Fintype.sum_prod_type]
  refine Finset.sum_congr rfl fun s _ => ?_
  unfold addend
  refine Finset.sum_congr rfl fun k _ => ?_
  have hs := s.isLt
  have hk := k.isLt
  have he : (finProdFinEquiv (s, k) : Fin 4096).val = k.val + 1024 * s.val := rfl
  congr 2
  · exact idx2_ext (by show 1024 * ((b + s.val) / 16 % 8) + (y 0).val = (i 0).val; omega)
      (by show 1024 * ((b + s.val) % 4) + k.val = (finProdFinEquiv (s, k) : Fin 4096).val; omega)
  · exact idx2_ext (by show 1024 * ((b + s.val) % 4) + k.val = (finProdFinEquiv (s, k) : Fin 4096).val; omega)
      (by show 1024 * ((b + s.val) / 4 % 4) + (y 1).val = (i 1).val; omega)

end Cert.BinaryDense

end
-- ==== Proof.KernelValue.lean ====
/-
  The kernel's result array: the whole product of x with the weight array.

  The grid has 128 points t; its three coordinates are the row block t / 16, the column block (t / 4) mod 4 and the depth
  block t mod 4 (the fastest). Each input window's block at t is the restriction of its whole array to that block. Over
  the four points of a run (one row block and column block, depth blocks 0 to 3) the carried block starts at zero and
  gains the point's 1024-deep partial product at every point, so after the run's last point it holds, entry by entry,
  the 4096-deep product; that point copies it to the output block and writes it back as block (t / 16, (t / 4) mod 4) of
  the result. These 32 output blocks tile the result, so the result is the whole product x · W with
  W(e, c) = (2·[u(e, c) < σ(M(e, c))] − 1)·2⁻⁶.
-/
import proofs.«167351_j26044681683332_1_alg».proof.Proof.Gen.KernelIdeal.Value
import proofs.«167351_j26044681683332_1_alg».proof.Proof.KernelBlock
import proofs.«167351_j26044681683332_1_alg».proof.Proof.KernelCases
import proofs.«167351_j26044681683332_1_alg».proof.Proof.BlockSum

set_option maxRecDepth 16384

noncomputable section

open scoped BigOperators

namespace Cert.BinaryDense

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-- The x array as the region finds it. -/
abbrev xArr (c : Dev nD) : Vec Ideal S8192x4096 .f32 := V m c main_arg0
/-- The M and u arrays as the region finds them. -/
abbrev mArr (c : Dev nD) : Vec Ideal S4096x4096 .f32 := V m c main_arg1
abbrev uArr (c : Dev nD) : Vec Ideal S4096x4096 .f32 := V m c main_arg2
/-- The weight array. -/
abbrev wArr (c : Dev nD) : FVec Ideal S4096x4096 .f32 := wtv (mArr m c) (uArr m c)
/-- The three input blocks at a point. -/
abbrev xBlk (c : Dev nD) (t : Fin cfg0.N) : Vec Ideal S1024x1024 .f32 := iblk m c 0 t
abbrev mBlk (c : Dev nD) (t : Fin cfg0.N) : Vec Ideal S1024x1024 .f32 := iblk m c 1 t
abbrev uBlk (c : Dev nD) (t : Fin cfg0.N) : Vec Ideal S1024x1024 .f32 := iblk m c 2 t

/-- The windows' block indices at point `t`, in closed form: the row block is t / 16, the column block (t / 4) mod 4,
    the depth block t mod 4. Decided over the grid. -/
theorem block_indices : ∀ t : Fin cfg0.N,
    win0_0.index t (0 : Fin 2) = t.val / 16 % 8 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = t.val / 16 % 8 ∧ win0_3.index t (1 : Fin 2) = t.val / 4 % 4 :=
  (by decide +kernel : ∀ t : Fin grid0.N, _)

/-- The x block at a point is the x array restricted to the point's row block and depth block. -/
theorem xBlk_apply (c : Dev nD) (t : Fin cfg0.N) (p k : Fin 1024) :
    xBlk m c t (ix2 p k) = xArr m c (ix2 (rowOf t.val p) (depOf t.val k)) := by
  show V m c main_arg0 (((cfg0.win 0).blk t).view.emb (ix2 p k)) = V m c main_arg0 (ix2 (rowOf t.val p) (depOf t.val k))
  obtain ⟨e0, e1, -⟩ := block_indices t
  refine congrArg _ (funext fun a => Fin.ext ?_)
  match a with
  | ⟨0, _⟩ => show win0_0.index t (0 : Fin 2) * 1024 + 1 * p.val = 1024 * (t.val / 16 % 8) + p.val; omega
  | ⟨1, _⟩ => show win0_0.index t (1 : Fin 2) * 1024 + 1 * k.val = 1024 * (t.val % 4) + k.val; omega

/-- The M block at a point is the M array restricted to the point's depth block and column block. -/
theorem mBlk_apply (c : Dev nD) (t : Fin cfg0.N) (k q : Fin 1024) :
    mBlk m c t (ix2 k q) = mArr m c (ix2 (depOf t.val k) (colOf t.val q)) := by
  show V m c main_arg1 (((cfg0.win 1).blk t).view.emb (ix2 k q)) = V m c main_arg1 (ix2 (depOf t.val k) (colOf t.val q))
  obtain ⟨-, -, e0, e1, -⟩ := block_indices t
  refine congrArg _ (funext fun a => Fin.ext ?_)
  match a with
  | ⟨0, _⟩ => show win0_1.index t (0 : Fin 2) * 1024 + 1 * k.val = 1024 * (t.val % 4) + k.val; omega
  | ⟨1, _⟩ => show win0_1.index t (1 : Fin 2) * 1024 + 1 * q.val = 1024 * (t.val / 4 % 4) + q.val; omega

/-- The u block at a point is the u array restricted to the same block. -/
theorem uBlk_apply (c : Dev nD) (t : Fin cfg0.N) (k q : Fin 1024) :
    uBlk m c t (ix2 k q) = uArr m c (ix2 (depOf t.val k) (colOf t.val q)) := by
  show V m c main_arg2 (((cfg0.win 2).blk t).view.emb (ix2 k q)) = V m c main_arg2 (ix2 (depOf t.val k) (colOf t.val q))
  obtain ⟨-, -, -, -, e0, e1, -⟩ := block_indices t
  refine congrArg _ (funext fun a => Fin.ext ?_)
  match a with
  | ⟨0, _⟩ => show win0_2.index t (0 : Fin 2) * 1024 + 1 * k.val = 1024 * (t.val % 4) + k.val; omega
  | ⟨1, _⟩ => show win0_2.index t (1 : Fin 2) * 1024 + 1 * q.val = 1024 * (t.val / 4 % 4) + q.val; omega

/-- One depth step at point `t` adds the point's addend to the running block, entry by entry. -/
theorem point_step (c : Dev nD) (t : Fin cfg0.N) (acc : Vec Ideal S1024x1024 .f32) (y : S1024x1024.Idx) :
    k0_pay2 (F := Ideal) (mBlk m c t) (uBlk m c t) (xBlk m c t) acc y
      = acc y + addend (xArr m c) (wArr m c) t.val y := by
  obtain ⟨p, q, rfl⟩ : ∃ (p q : Fin 1024), y = ix2 p q := ⟨y 0, y 1, eq_ix2 y⟩
  refine (step_apply (mBlk m c t) (uBlk m c t) (xBlk m c t) acc p q).trans ?_
  unfold addend
  refine congrArg (acc (ix2 p q) + ·) (Finset.sum_congr rfl fun k _ => ?_)
  rw [xBlk_apply, mBlk_apply, uBlk_apply]
  rfl

/-- At the first point of a run the carried block ends at zero plus the point's addend, whatever it held before. -/
theorem first_point (c : Dev nD) (n : ℕ) (h : n < cfg0.N) (h0 : n % 4 = 0) (acc : Vec Ideal S1024x1024 .f32)
    (y : S1024x1024.Idx) :
    scAt0_0 m c n h acc y = 0 + addend (xArr m c) (wArr m c) n y := by
  have h1 : ¬n % 4 = 3 := by omega
  unfold scAt0_0
  rw [dif_pos h0, dif_neg h1, carried_first]
  exact (point_step m c ⟨n, h⟩ (k0_pay1 (F := Ideal)) y).trans (by rw [zero_block_apply])

/-- At every later point of a run the carried block gains the point's addend. -/
theorem later_point (c : Dev nD) (n : ℕ) (h : n < cfg0.N) (h0 : ¬n % 4 = 0) (acc : Vec Ideal S1024x1024 .f32)
    (y : S1024x1024.Idx) :
    scAt0_0 m c n h acc y = acc y + addend (xArr m c) (wArr m c) n y := by
  unfold scAt0_0
  rw [dif_neg h0]
  by_cases h1 : n % 4 = 3
  · rw [dif_pos h1, carried_last]
    exact point_step m c ⟨n, h⟩ acc y
  · rw [dif_neg h1, carried_middle]
    exact point_step m c ⟨n, h⟩ acc y

/-- After the last point of a run the carried block holds, entry by entry, the sum of the run's four addends. -/
theorem carried_after_run (c : Dev nD) (t : Fin cfg0.N) (h3 : t.val % 4 = 3) (y : S1024x1024.Idx) :
    (outsAt0 m c t.val t.isLt).2 y = ∑ s ∈ Finset.range 4, addend (xArr m c) (wArr m c) (4 * (t.val / 4) + s) y := by
  rw [soutsAt0_0_eq m c t]
  have hfold := Pipeline.accAt_add_apply (N := cfg0.N)
    (fun n h => scAt0_0 m c n h (VS0_0.read (Elt Ideal) VS0_0.junk)) (scAt0_0 m c)
    (fun _ => (0 : Ideal .f32)) (addend (xArr m c) (wArr m c)) (4 * (t.val / 4)) 3
    (fun h i => first_point m c _ h (by omega) _ i)
    (fun n h acc i hb hn => later_point m c n h (by omega) acc i)
    (t.val % 4) (by omega) (by have h1 := t.isLt; have h2 := Nat.div_add_mod t.val 4; omega) y
  rw [hfold, zero_add, h3]

/-- The last point of a run copies the carried block to the output block. -/
theorem output_after_run (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  rw [output_last, carried_last]

/-- WHAT A WRITING POINT WRITES BACK is its block of the whole product. -/
theorem flushed_eq (c : Dev nD) (t : Fin cfg0.N) (hf : (cfg0.win 3).flush t = true) :
    (dats m 0 c).flushed 3 t = ((cfg0.win 3).blk t).view.read (Elt Ideal) (prod (xArr m c) (wArr m c)) := by
  have h3 : t.val % 4 = 3 := (flush0_3 t).mp hf
  rw [flushed3]
  funext j
  show (outsAt0 m c t.val t.isLt).1 j = prod (xArr m c) (wArr m c) (((cfg0.win 3).blk t).view.emb j)
  rw [output_after_run m c t h3, carried_after_run m c t h3 j]
  obtain ⟨-, -, -, -, -, -, e0, e1⟩ := block_indices t
  have hj0 : (j 0).val < 1024 := (j 0).isLt
  have hj1 : (j 1).val < 1024 := (j 1).isLt
  refine sum_addends _ _ (4 * (t.val / 4)) (by omega) j _ ?_ ?_
  · show win0_3.index t (0 : Fin 2) * 1024 + 1 * (j 0).val = 1024 * (4 * (t.val / 4) / 16 % 8) + (j 0).val
    omega
  · show win0_3.index t (1 : Fin 2) * 1024 + 1 * (j 1).val = 1024 * (4 * (t.val / 4) / 4 % 4) + (j 1).val
    omega

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the result lies in the block some writing point writes: row block r / 1024, column block c / 1024,
    written at the run's last point. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by omega⟩
  have ht : t.val = 16 * ((i 0).val / 1024) + 4 * ((i 1).val / 1024) + 3 := rfl
  obtain ⟨-, -, -, -, -, -, e0, e1⟩ := block_indices t
  refine ⟨t, (flush0_3 t).mpr (by omega), ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the run is the whole product of x with the weight array. -/
theorem result_eq (c : Dev nD) : (dats m 0 c).arrAt 3 cfg0.N = prod (xArr m c) (wArr m c) :=
  (dats m 0 c).arrAt_eq_of_cover 3 _ (fun t hf => flushed_eq m c t hf) covered

/-- The kernel's run: it terminates with the result at the whole product and the arguments unchanged. -/
theorem kernel_run : θ_run defs (onTc (τ := τ) (main (F := Ideal))) ⟨m, fun _ => 0, ρ⟩ fun r => ∀ c : Dev nD,
      r.2.mem ((c : Thread nD τ).loc main_v0)
        = prod (m ((c : Thread nD τ).loc main_arg0)) (wtv (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (run_blocks m ρ)

end Cert.BinaryDense

end
-- ==== Proof.RefValue.lean ====
/-
  The reference's result array: the whole product of x with the weight array.

  The reference forms the weight array in one pass over the whole 4096 × 4096 arrays, with σ(M) written out as
  1 / (1 + e^(−M)) and the straight-through term s − s added before the scale 2⁻⁶, and multiplies x by it in one
  4096-deep product. Entry by entry its weight is the weight (2·[u < σ(M)] − 1)·2⁻⁶, since s is real and s − s = 0; so
  entry (r, c) of its result is the sum over e of x(r, e)·W(e, c).
-/
import proofs.«167351_j26044681683332_1_alg».proof.Proof.Gen.ReferenceIdeal.Read
import proofs.«167351_j26044681683332_1_alg».proof.Proof.Weight
import proofs.«167351_j26044681683332_1_alg».proof.Proof.BlockSum

noncomputable section

open scoped BigOperators

namespace Cert.BinaryDense

open Idealize.ShloMosaic Idealize.ShloMosaic.ValueIdx
open Cert.ReferenceIdeal Cert.ReferenceIdeal.Read

/-- The reference's scaled weight array, at an entry, is the weight of that entry of M and u. -/
theorem ref_weight (Mw uw : (⟨S4096x4096, .f32⟩ : BufTy).Contents (Elt Ideal)) (j : S4096x4096.Idx) :
    val_main_v19 (F := Ideal) Mw uw j = wt (Mw j) (uw j) := by
  simp only [val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    val_main_cst_2_apply, val_main_cst_3_apply, val_main_cst_4_apply, val_main_cst_5_apply]
  exact wt_spelt_out (Mw j) (uw j)

/-- The reference's result is the whole product of x with the weight array. -/
theorem ref_is_prod (X : (⟨S8192x4096, .f32⟩ : BufTy).Contents (Elt Ideal)) (Mw uw : (⟨S4096x4096, .f32⟩ : BufTy).Contents (Elt Ideal)) :
    val_main_v20 (F := Ideal) X Mw uw = prod X (wtv Mw uw) := by
  funext i
  rw [val_main_v20_apply]
  unfold prod
  refine Finset.sum_congr rfl fun e _ => ?_
  rw [ref_weight]
  have hl : lidx_main_v20 i e = ix2 (i 0) e := idx2_ext rfl rfl
  have hr : ridx_main_v20 i e = ix2 e (i 1) := idx2_ext rfl rfl
  rw [hl, hr]
  rfl

end Cert.BinaryDense

end
-- ==== Proof.lean ====
/-
  A dense layer with stochastically binarized weights: out = x · W, where W(e, c) = (2·[u(e, c) < σ(M(e, c))] − 1)·2⁻⁶
  and σ is the logistic function; x is 8192 × 4096, M and u are 4096 × 4096.

  The kernel tiles the product into 1024³ blocks over a grid (row block, column block, depth block), forms each weight
  block inside the body, and accumulates the four depth blocks' partial products in a carried block that it zeroes at
  depth block 0 and writes out at depth block 3. The reference forms the whole weight array at once, with σ(M) spelt
  out as 1 / (1 + e^(−M)) and with the straight-through term s − s (s = 2·σ(M) − 1) added before the scale, and takes one
  4096-deep product.

  On the extended reals the two agree entry by entry:
  • σ is real at every extended real, so s is real and s − s = 0 (Proof/Weight.lean); the comparison bit converted
    directly or through a 32-bit word is the same 0 or 1; so both sides' weight entries are one number;
  • narrowing a factor to bf16 is the identity, and a matrix-unit product into a zero accumulator is the plain sum of
    products (Proof/KernelBlock.lean);
  • the four 1024-deep partial sums of a run add up to the 4096-deep sum: e = 1024·s + k is a bijection and addition
    of extended reals is commutative and associative (Proof/BlockSum.lean) — no finiteness of the inputs is needed;
  • the 32 written blocks tile the result (Proof/KernelValue.lean).
  The three frames are the generated ones (the reference's is its run with the result dropped); the idealization
  rewrote nothing, so `preserves` is trivial.
-/
import proofs.«167351_j26044681683332_1_alg».proof.Defs
import proofs.«167351_j26044681683332_1_alg».proof.Proof.Gen.Kernel
import proofs.«167351_j26044681683332_1_alg».proof.Proof.Gen.Kernel.Skeleton
import proofs.«167351_j26044681683332_1_alg».proof.Proof.Gen.Kernel.Launch
import proofs.«167351_j26044681683332_1_alg».proof.Proof.Gen.Kernel.Points
import proofs.«167351_j26044681683332_1_alg».proof.Proof.Gen.Kernel.Frame
import proofs.«167351_j26044681683332_1_alg».proof.Proof.Gen.KernelIdeal
import proofs.«167351_j26044681683332_1_alg».proof.Proof.Gen.KernelIdeal.Skeleton
import proofs.«167351_j26044681683332_1_alg».proof.Proof.Gen.KernelIdeal.Launch
import proofs.«167351_j26044681683332_1_alg».proof.Proof.Gen.KernelIdeal.Points
import proofs.«167351_j26044681683332_1_alg».proof.Proof.Gen.KernelIdeal.Frame
import proofs.«167351_j26044681683332_1_alg».proof.Proof.Gen.ReferenceIdeal
import proofs.«167351_j26044681683332_1_alg».proof.Proof.Gen.Pre_finite_inputs
import proofs.«167351_j26044681683332_1_alg».proof.Proof.Gen.KernelIdeal.Value
import proofs.«167351_j26044681683332_1_alg».proof.Proof.Gen.ReferenceIdeal.Run
import proofs.«167351_j26044681683332_1_alg».proof.Proof.Gen.ReferenceIdeal.Read
import proofs.«167351_j26044681683332_1_alg».proof.Proof.KernelValue
import proofs.«167351_j26044681683332_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the whole product of x with the weight array of M and u. -/
theorem algebraic : Cert.algebraic_KernelIdeal_ReferenceIdeal := by
  intro m ρ m' ρ' _ hagree
  refine ⟨_, Cert.BinaryDense.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.BinaryDense.ref_is_prod, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
